-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x128x512 .f32) (main_arg1 : FVec F S8x128x512 .f32) (main_arg2 : FVec F S1024x1024 .f32) (main_arg3 : FVec F S1024 .f32) (main_arg4 : FVec F S1x1024 .f32) (main_arg5 : FVec F S1 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x128x512 .f32 := Host.absf main_arg1
  let main_cst_0 : FVec F S_ .f32 := constant S_ .f32 0x7F800000#32
  let main_v5 : FVec F S8x128x512 .f32 := broadcastInDim S8x128x512 ![] bcast_S_S8x128x512 main_cst_0
  let main_v6 : IVec S8x128x512 1 := cmpf .olt main_v4 main_v5
  let main_c_1 : IVec S_ 1 := constantI S_ 1 1#1
  let main_v7 : IVec S_ 1 := (fun x v => Host.reduce IntOp.andi x v reducesTo_S8x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x128x512 : Shape := ⟨3, ![8, 128, 512]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S512x1024 : Shape := ⟨2, ![512, 1024]⟩
abbrev S8x128x128 : Shape := ⟨3, ![8, 128, 128]⟩
abbrev S1x128x512 : Shape := ⟨3, ![1, 128, 512]⟩
abbrev S512x512 : Shape := ⟨2, ![512, 512]⟩
abbrev S1x512 : Shape := ⟨2, ![1, 512]⟩
abbrev S1x128x128 : Shape := ⟨3, ![1, 128, 128]⟩
abbrev S128x128 : Shape := ⟨2, ![128, 128]⟩
abbrev S128x512 : Shape := ⟨2, ![128, 512]⟩
abbrev S1x1x512 : Shape := ⟨3, ![1, 1, 512]⟩
abbrev S128x1x512 : Shape := ⟨3, ![128, 1, 512]⟩
abbrev S128x128x512 : Shape := ⟨3, ![128, 128, 512]⟩
abbrev S_ : Shape := ⟨0, ![]⟩

abbrev nBuf : Space → Nat
  | .hbm => 15
  | .vmem => 15
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S1024x512, .f32⟩
  | .hbm, ⟨7, _⟩ => ⟨S1024x512, .f32⟩
  | .hbm, ⟨8, _⟩ => ⟨S512x1024, .f32⟩
  | .hbm, ⟨9, _⟩ => ⟨S512x1024, .f32⟩
  | .hbm, ⟨10, _⟩ => ⟨S1x1024, .f32⟩
  | .hbm, ⟨11, _⟩ => ⟨S8x128x128, .f32⟩
  | .hbm, ⟨12, _⟩ => ⟨S_, .f32⟩
  | .hbm, ⟨13, _⟩ => ⟨S8x128x128, .f32⟩
  | .hbm, ⟨14, _⟩ => ⟨S8x128x128, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128x128, .f32⟩
  | .local _ .vmem, ⟨13, _⟩ => ⟨S1x128x128, .f32⟩
  | .local _ .vmem, ⟨14, _⟩ => ⟨S128x128, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v39 : BitVec 1 := Scalar.cmpi .eq arg1 c1_i32
  let v40 : BitVec 32 := Scalar.extui v39
  let c0_i32_21 : BitVec 32 := 0#32
  let v41 : BitVec 1 := Scalar.cmpi .ne v40 c0_i32_21
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  shapeCasts_S1024_S1x1024 : S1024.ShapeCasts S1x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S128x512_S128x1x512 : S128x512.ShapeCasts S128x1x512
  shapeCasts_S128x512_S1x128x512 : S128x512.ShapeCasts S1x128x512
  broadcasts_S128x1x512_S128x128x512 : S128x1x512.Broadcasts S128x128x512
  broadcasts_S1x128x512_S128x128x512 : S1x128x512.Broadcasts S128x128x512
  broadcasts_S1x1x512_S128x128x512 : S1x1x512.Broadcasts S128x128x512
  reduces_S128x128x512_S128x128 : S128x128x512.Reduces [2] S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S1_S_ : S1.ShapeCasts S_
  bcast_S_S8x128x128 : S_.BroadcastsInDim S8x128x128 (![] : Fin 0 → Fin S8x128x128.rank)
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .f32 = 32 ∨ (Rect.block (s := S8x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S8x128x512.size a
  hwx0_1 : ∀ i : grid0.Coords, EltTy.bits .f32 = 32 ∨ (Rect.block (s := S8x128x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x1024.size a
  hwx0_2 : ∀ i : grid0.Coords, EltTy.bits .f32 = 32 ∨ (Rect.block (s := S512x1024) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x1024.size a
  hwx0_3 : ∀ i : grid0.Coords, EltTy.bits .f32 = 32 ∨ (Rect.block (s := S512x1024) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x1024.size a
  hwx0_5 : ∀ i : grid0.Coords, EltTy.bits .f32 = 32 ∨ (Rect.block (s := S1x1024) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S8x128x128.size a
  hwx0_6 : ∀ i : grid0.Coords, EltTy.bits .f32 = 32 ∨ (Rect.block (s := S8x128x128) S1x128x128.size (cc0_transform_6 i) (hinb0_6 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x128x512 : Shape := ⟨3, ![8, 128, 512]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1024x512 : Shape := ⟨2, ![1024, 512]⟩
abbrev S8x128x1024 : Shape := ⟨3, ![8, 128, 1024]⟩
abbrev S8x128x1x1024 : Shape := ⟨4, ![8, 128, 1, 1024]⟩
abbrev S8x1x128x1024 : Shape := ⟨4, ![8, 1, 128, 1024]⟩
abbrev S8x128x128x1024 : Shape := ⟨4, ![8, 128, 128, 1024]⟩
abbrev S1x1x1x1024 : Shape := ⟨4, ![1, 1, 1, 1024]⟩
abbrev S_ : Shape := ⟨0, ![]⟩
abbrev S8x128x128x1 : Shape := ⟨4, ![8, 128, 128, 1]⟩
abbrev S1x1x1x1 : Shape := ⟨4, ![1, 1, 1, 1]⟩
abbrev S8x128x128 : Shape := ⟨3, ![8, 128, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S1, .f32⟩
  | .hbm, ⟨6, _⟩ => ⟨S1024x512, .f32⟩
  | .hbm, ⟨7, _⟩ => ⟨S1024x512, .f32⟩
  | .hbm, ⟨8, _⟩ => ⟨S8x128x1024, .f32⟩
  | .hbm, ⟨9, _⟩ => ⟨S8x128x1024, .f32⟩
  | .hbm, ⟨10, _⟩ => ⟨S8x128x1x1024, .f32⟩
  | .hbm, ⟨11, _⟩ => ⟨S8x1x128x1024, .f32⟩
  | .hbm, ⟨12, _⟩ => ⟨S8x128x128x1024, .f32⟩
  | .hbm, ⟨13, _⟩ => ⟨S8x128x128x1024, .f32⟩
  | .hbm, ⟨14, _⟩ => ⟨S8x128x128x1024, .f32⟩
  | .hbm, ⟨15, _⟩ => ⟨S1x1x1x1024, .f32⟩
  | .hbm, ⟨16, _⟩ => ⟨S8x128x128x1024, .f32⟩
  | .hbm, ⟨17, _⟩ => ⟨S8x128x128x1024, .f32⟩
  | .hbm, ⟨18, _⟩ => ⟨S_, .f32⟩
  | .hbm, ⟨19, _⟩ => ⟨S8x128x128x1024, .f32⟩
  | .hbm, ⟨20, _⟩ => ⟨S8x128x128x1024, .f32⟩
  | .hbm, ⟨21, _⟩ => ⟨S8x128x128x1, .f32⟩
  | .hbm, ⟨22, _⟩ => ⟨S1x1x1x1, .f32⟩
  | .hbm, ⟨23, _⟩ => ⟨S8x128x128x1, .f32⟩
  | .hbm, ⟨24, _⟩ => ⟨S8x128x128x1, .f32⟩
  | .hbm, ⟨25, _⟩ => ⟨S8x128x128, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S8x128x1024_S8x128x1x1024_0_1_3 : S8x128x1024.BroadcastsInDim S8x128x1x1024 (![0, 1, 3] : Fin 3 → Fin S8x128x1x1024.rank)
  bcast_S8x128x1024_S8x1x128x1024_0_2_3 : S8x128x1024.BroadcastsInDim S8x1x128x1024 (![0, 2, 3] : Fin 3 → Fin S8x1x128x1024.rank)
  bcast_S8x128x1x1024_S8x128x128x1024_0_1_2_3 : S8x128x1x1024.BroadcastsInDim S8x128x128x1024 (![0, 1, 2, 3] : Fin 4 → Fin S8x128x128x1024.rank)
  bcast_S8x1x128x1024_S8x128x128x1024_0_1_2_3 : S8x1x128x1024.BroadcastsInDim S8x128x128x1024 (![0, 1, 2, 3] : Fin 4 → Fin S8x128x128x1024.rank)
  bcast_S1024_S1x1x1x1024_3 : S1024.BroadcastsInDim S1x1x1x1024 (![3] : Fin 1 → Fin S1x1x1x1024.rank)
  bcast_S1x1x1x1024_S8x128x128x1024_0_1_2_3 : S1x1x1x1024.BroadcastsInDim S8x128x128x1024 (![0, 1, 2, 3] : Fin 4 → Fin S8x128x128x1024.rank)
  bcast_S_S8x128x128x1024 : S_.BroadcastsInDim S8x128x128x1024 (![] : Fin 0 → Fin S8x128x128x1024.rank)
  bcast_S1_S1x1x1x1_3 : S1.BroadcastsInDim S1x1x1x1 (![3] : Fin 1 → Fin S1x1x1x1.rank)
  bcast_S1x1x1x1_S8x128x128x1_0_1_2_3 : S1x1x1x1.BroadcastsInDim S8x128x128x1 (![0, 1, 2, 3] : Fin 4 → Fin S8x128x128x1.rank)
  shapeCasts_S8x128x128x1_S8x128x128 : S8x128x128x1.ShapeCasts S8x128x128
  dot_S8x128x512_S1024x512_S8x128x1024_2_1_01_0_n_n_wf : DotDims.WF S8x128x512 S1024x512 S8x128x1024 [2] [1] [0, 1] [0] [] []
  dot_S8x128x128x1024_S1x1024_S8x128x128x1_3_1_012_0_n_n_wf : DotDims.WF S8x128x128x1024 S1x1024 S8x128x128x1 [3] [1] [0, 1, 2] [0] [] []

variable [Facts₀]

def dot_S8x128x512_S1024x512_S8x128x1024_2_1_01_0_n_n : DotDims S8x128x512 S1024x512 S8x128x1024 where
  lhsContracting := [2]
  rhsContracting := [1]
  lhsNonContracting := [0, 1]
  rhsNonContracting := [0]
  lhsBatch := []
  rhsBatch := []
  wf := dot_S8x128x512_S1024x512_S8x128x1024_2_1_01_0_n_n_wf
def dot_S8x128x128x1024_S1x1024_S8x128x128x1_3_1_012_0_n_n : DotDims S8x128x128x1024 S1x1024 S8x128x128x1 where
  lhsContracting := [3]
  rhsContracting := [1]
  lhsNonContracting := [0, 1, 2]
  rhsNonContracting := [0]
  lhsBatch := []
  rhsBatch := []
  wf := dot_S8x128x128x1024_S1x1024_S8x128x128x1_3_1_012_0_n_n_wf

class Facts : Prop extends Facts₀ where

variable [Facts]
-- ==== Proof.Pieces.lean ====
/-
  What one grid point leaves behind, read off the stores the run found.

  The body keeps a running [128, 128] array of partial scores in a scratch buffer. At the first of a batch's two points
  it stores zeros there, reads them back, adds the point's contribution and stores the sum: the scratch ends at
  `0 + contribution`. At the second point it adds the point's contribution to what the first point left, and the
  batch's output block is that sum viewed as [1, 128, 128].

  Each of these is the value of one whole-buffer store (or of two, the later covering the earlier), so reading the
  buffer back gives the stored payload, and every load the payload is made of reads a whole buffer.
-/
import proofs.«176836_j51118700757140_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a batch: the scratch ends at the zero block plus the point's contribution. -/
theorem scratch_A (c : Dev nD) (i : grid0.Coords) (a2 : Memref sig .tc .vmem S1x128x512 .f32) (h2 : a2.IsWhole) (a3 : Memref sig .tc .vmem S1x128x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x128x128 .f32) (h8 : a8.IsWhole) (a9 : Memref sig .tc .vmem S128x128 .f32) (h9 : a9.IsWhole) (hc0 : cond0_0 i) (hc1 : ¬cond0_1 i) (x0 x1 : Vec F S1x128x512 .f32) (x2 x3 : Vec F S512x512 .f32) (x4 x5 : Vec F S1x512 .f32) :
    sout0_A_0 c i a2 h2 a3 h3 a4 h4 a5 h5 a6 h6 a7 h7 a8 h8 a9 h9 hc0 hc1 x0 x1 x2 x3 x4 x5 = k0_pay1 (k0_pay4 x0 x1 x2 x3 x4 x5) (k0_pay3 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S128x128) hz2, View.readCov_unit_zero (S := S128x128) _ hz2]
  simp only [View.readAt_eq_ld, h2.read_unread, h3.read_unread, h4.read_unread, h5.read_unread, h6.read_unread, h7.read_unread,
    View.ld_unit_zero (S := S1x128x512) hz3, View.ld_unit_zero (S := S512x512) hz2, View.ld_unit_zero (S := S1x512) hz2]

/-- Second point of a batch: the scratch ends at what it held plus the point's contribution. -/
theorem scratch_B (c : Dev nD) (i : grid0.Coords) (a2 : Memref sig .tc .vmem S1x128x512 .f32) (h2 : a2.IsWhole) (a3 : Memref sig .tc .vmem S1x128x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x128x128 .f32) (h8 : a8.IsWhole) (a9 : Memref sig .tc .vmem S128x128 .f32) (h9 : a9.IsWhole) (hc0 : ¬cond0_0 i) (hc1 : cond0_1 i) (x0 x1 : Vec F S1x128x512 .f32) (x2 x3 : Vec F S512x512 .f32) (x4 x5 : Vec F S1x512 .f32) (xs0 : Vec F S128x128 .f32) :
    sout0_B_0 c i a2 h2 a3 h3 a4 h4 a5 h5 a6 h6 a7 h7 a8 h8 a9 h9 hc0 hc1 x0 x1 x2 x3 x4 x5 xs0 = k0_pay1 (k0_pay4 x0 x1 x2 x3 x4 x5) xs0 := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread,
    h9.read_unread, View.ld_unit_zero (S := S1x128x512) hz3, View.ld_unit_zero (S := S512x512) hz2,
    View.ld_unit_zero (S := S1x512) hz2, View.ld_unit_zero (S := S128x128) hz2]

/-- Second point of a batch: the output block is that same sum, viewed as [1, 128, 128]. -/
theorem out_B (c : Dev nD) (i : grid0.Coords) (a2 : Memref sig .tc .vmem S1x128x512 .f32) (h2 : a2.IsWhole) (a3 : Memref sig .tc .vmem S1x128x512 .f32) (h3 : a3.IsWhole) (a4 : Memref sig .tc .vmem S512x512 .f32) (h4 : a4.IsWhole) (a5 : Memref sig .tc .vmem S512x512 .f32) (h5 : a5.IsWhole) (a6 : Memref sig .tc .vmem S1x512 .f32) (h6 : a6.IsWhole) (a7 : Memref sig .tc .vmem S1x512 .f32) (h7 : a7.IsWhole) (a8 : Memref sig .tc .vmem S1x128x128 .f32) (h8 : a8.IsWhole) (a9 : Memref sig .tc .vmem S128x128 .f32) (h9 : a9.IsWhole) (hc0 : ¬cond0_0 i) (hc1 : cond0_1 i) (x0 x1 : Vec F S1x128x512 .f32) (x2 x3 : Vec F S512x512 .f32) (x4 x5 : Vec F S1x512 .f32) (xs0 : Vec F S128x128 .f32) :
    out0_B_6 c i a2 h2 a3 h3 a4 h4 a5 h5 a6 h6 a7 h7 a8 h8 a9 h9 hc0 hc1 x0 x1 x2 x3 x4 x5 xs0 = k0_pay2 (k0_pay1 (k0_pay4 x0 x1 x2 x3 x4 x5) xs0) := by
  unfold out0_B_6
  rw [View.read_writes_eq_canon _ _ _ (cover0_B_6 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz3, View.readCov_unit_zero (S := S128x128) _ hz2]
  simp only [View.readAt_eq_ld, h2.read_unread, h3.read_unread, h4.read_unread, h5.read_unread, h6.read_unread, h7.read_unread,
    h9.read_unread, View.ld_unit_zero (S := S1x128x512) hz3, View.ld_unit_zero (S := S512x512) hz2,
    View.ld_unit_zero (S := S1x512) hz2, View.ld_unit_zero (S := S128x128) hz2]

end Cert.KernelIdeal.Pieces

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.LibTileOps.lean ====
/-
  Three-axis tiles read at an index given by coordinates.

  A kernel that forms all pairs (i, j) of rows of two matrices lays the first matrix out as [a, 1, c] and the second as
  [1, b, c], broadcasts both to [a, b, c], and reduces the last axis. Read at (i, j, k):
  • an [a, 1, c] array broadcast to [a, b, c] reads its entry (i, 0, k): the middle coordinate is forgotten;
  • a [1, b, c] array broadcast to [a, b, c] reads its entry (0, j, k): the first coordinate is forgotten;
  • a [1, 1, c] array broadcast to [a, b, c] reads its entry (0, 0, k);
  • a [1, c] array viewed as [1, 1, c] moves no element;
  • the sum along the last axis of an [a, b, c] array, read at (i, j), is the sum of its c entries (i, j, 0) … (i, j, c − 1).
-/
import Idealize.ShloMosaic.Lib.ValueLayout
import Idealize.ShloMosaic.Lib.ValueIdx
import Idealize.ShloMosaic.Lib.Pipeline.Value
import Idealize.ShloMosaic.PureOps.Ideal.Laws

noncomputable section

namespace TileOps

open Idealize.ShloMosaic Idealize.ShloMosaic.ValueIdx

variable {α : Type}

/-! ## Broadcasts to three axes -/

/-- An `[a, 1, c]` array broadcast to `[a, b, c]` reads, at `(i, j, k)`, its entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, its entry `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, its entry `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## The sum along the last of three axes -/

/-- Over result index `(i, j)` of a reduction of `[a, b, c]` along axis 2, the source index with `k` inserted is
    `(i, j, k)`. -/
theorem lift_last {a b c : ℕ} (h : (⟨3, ![a, b, c]⟩ : Shape).Reduces [2] ⟨2, ![a, b]⟩) (i : Fin a) (j : Fin b) (k : Fin c) :
    h.lift (ix2 i j) k = ix3 i j k :=
  funext fun d => Fin.ext (by match d with | ⟨0, _⟩ => rfl | ⟨1, _⟩ => rfl | ⟨2, _⟩ => rfl)

variable {φ : FTy}

/-- The sum along the last axis, at the ideal values: entry `(i, j)` is the sum of the `c` entries `(i, j, ·)`. -/
theorem multiReduction_add_last {a b c : ℕ} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ v acc h hφ hacc (ix2 i j) = ∑ k : Fin c, v (ix3 i j k) := by
  rw [Ideal.multiReduction_add_single]
  exact Finset.sum_congr rfl fun k _ => congrArg v (lift_last h i j k)

end TileOps

end
-- ==== Proof.Spec.lean ====
/-
  The pairwise affinity score, as one function of the six argument arrays.

  For a batch `b` and a pair of rows `n` of `X[b]` and `m` of `Y[b]`, a hidden unit `h` sees the pre-activation
      (∑_d X[b,n,d] · W1[h,d]  +  ∑_d Y[b,m,d] · W1[h,512+d])  +  b1[h] ,
  the left half of row `h` of `W1` against the row of `X`, the right half against the row of `Y`. The score of the pair
  is the ReLU of that, weighted by `W2[0,h]`, summed over the 1024 hidden units, plus `b2[0]`.

  The 1024 hidden units split into two tiles of 512. A sum over all units is the sum over the first tile plus the sum
  over the second; started from zero this is `(0 + tile₀) + tile₁`. Over the extended reals addition is commutative
  and associative everywhere, so nothing has to be finite for this.
-/
import Idealize.ShloMosaic.Lib.ValueIdx
import Idealize.ShloMosaic.PureOps.Ideal

noncomputable section

namespace PairAffinity

open Idealize.ShloMosaic Idealize.ShloMosaic.ValueIdx

/-- Column `d` of the left half of a row of `W1`. -/
abbrev lo (d : Fin 512) : Fin 1024 := ⟨d.val, by omega⟩
/-- Column `d` of the right half of a row of `W1`. -/
abbrev hi (d : Fin 512) : Fin 1024 := ⟨512 + d.val, by omega⟩
/-- Hidden unit `k` of tile `s`. -/
abbrev col (s : Fin 2) (k : Fin 512) : Fin 1024 := ⟨s.val * 512 + k.val, by omega⟩

variable (X Y : (⟨3, ![8, 128, 512]⟩ : Shape).Idx → EReal) (W1 : (⟨2, ![1024, 1024]⟩ : Shape).Idx → EReal)
  (b1 : (⟨1, ![1024]⟩ : Shape).Idx → EReal) (W2 : (⟨2, ![1, 1024]⟩ : Shape).Idx → EReal)
  (b2 : (⟨1, ![1]⟩ : Shape).Idx → EReal)

/-- What hidden unit `h` contributes to the score of the pair `(n, m)` of batch `b`. -/
def unit (b : Fin 8) (n m : Fin 128) (h : Fin 1024) : EReal :=
  max (((∑ d : Fin 512, X (ix3 b n d) * W1 (ix2 h (lo d))) + ∑ d : Fin 512, Y (ix3 b m d) * W1 (ix2 h (hi d)))
      + b1 (ix1 h)) 0
    * W2 (ix2 (0 : Fin 1) h)

/-- The contributions of one tile of 512 hidden units. -/
def tile (b : Fin 8) (n m : Fin 128) (s : Fin 2) : EReal := ∑ k : Fin 512, unit X Y W1 b1 W2 b n m (col s k)

/-- The contributions of all hidden units. -/
def hidden (b : Fin 8) (n m : Fin 128) : EReal := ∑ h : Fin 1024, unit X Y W1 b1 W2 b n m h

/-- The score of the pair. -/
def score (b : Fin 8) (n m : Fin 128) : EReal := hidden X Y W1 b1 W2 b n m + b2 (ix1 (0 : Fin 1))

/-- The scores of all pairs of all batches, as an array `[8, 128, 128]`. -/
def G : (⟨3, ![8, 128, 128]⟩ : Shape).Idx → EReal := fun i => score X Y W1 b1 W2 b2 (i 0) (i 1) (i 2)

theorem G_ix3 (b : Fin 8) (n m : Fin 128) : G X Y W1 b1 W2 b2 (ix3 b n m) = score X Y W1 b1 W2 b2 b n m := rfl

/-- A sum over 1024 terms is the sum over the first 512 plus the sum over the last 512. -/
theorem sum_halves (f : Fin 1024 → EReal) :
    ∑ h : Fin 1024, f h = (∑ k : Fin 512, f (col 0 k)) + ∑ k : Fin 512, f (col 1 k) := by
  have e := Fin.sum_univ_add (M := EReal) (a := 512) (b := 512) f
  refine e.trans ?_
  congr 1

/-- Started from zero, the first tile added and then the second: all hidden units. -/
theorem tiles_eq_hidden (b : Fin 8) (n m : Fin 128) :
    (0 + tile X Y W1 b1 W2 b n m 0) + tile X Y W1 b1 W2 b n m 1 = hidden X Y W1 b1 W2 b n m := by
  rw [zero_add]
  exact (sum_halves (unit X Y W1 b1 W2 b n m)).symm

end PairAffinity

end
-- ==== Proof.Tile.lean ====
/-
  One grid point's contribution, read at a pair (n, m).

  The point holds a block of 128 rows of `X`, a block of 128 rows of `Y`, two [512, 512] blocks of the transposed halves
  of `W1` (512 input columns by the tile's 512 hidden units), and the tile's 512 entries of `b1` and of `W2`. Its
  contribution to the score of the pair (n, m) is the sum over the tile's hidden units k of
      max ((∑_d x[n,d] · wx[d,k]  +  ∑_d y[m,d] · wy[d,k])  +  b[k], 0) · w[k] .
  The narrowing of the operands to bf16 before the two products is the identity on extended reals, each product into a
  zero accumulator is the plain sum over the contracted axis, and the views and broadcasts only move elements.
-/
import proofs.«176836_j51118700757140_1_alg».proof.Proof.Gen.KernelIdeal.Skeleton
import proofs.«176836_j51118700757140_1_alg».proof.Proof.LibRowOps
import proofs.«176836_j51118700757140_1_alg».proof.Proof.LibTileOps
import proofs.«176836_j51118700757140_1_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.Tile

open Cert.KernelIdeal Cert.KernelIdeal.Gen Idealize.ShloMosaic.ValueIdx

/-! ## The product of a [128, 512] block with a [512, 512] block -/

theorem lhs_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhs_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhs_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhs_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- Into a zero accumulator, entry `(r, k)` of the product is the sum over `d` of row `r` of the left block against
    column `k` of the right block. -/
theorem product_apply (l : FVec Ideal S128x512 .bf16) (w : FVec Ideal S512x512 .bf16) (r : Fin 128) (k : Fin 512) :
    matmul dot_S128x512_S512x512_S128x512_1_0_0_1_n_n none l w (constant (F := Ideal) S128x512 .f32 0x00000000#32) (ix2 r k)
      = ∑ d : Fin 512, l (ix2 r d) * w (ix2 d k) := by
  simp only [matmul]
  rw [Ideal.matmul_constant_zero_apply, ← Equiv.sum_comp (contrEquiv1 dot_S128x512_S512x512_S128x512_1_0_0_1_n_n 512 rfl rfl).symm]
  refine Finset.sum_congr rfl fun d _ => ?_
  have hk := contrEquiv1_symm_val dot_S128x512_S512x512_S128x512_1_0_0_1_n_n 512 rfl rfl d
  have el : dot_S128x512_S512x512_S128x512_1_0_0_1_n_n.lhsIdx (ix2 r k) ((contrEquiv1 dot_S128x512_S512x512_S128x512_1_0_0_1_n_n 512 rfl rfl).symm d) = ix2 r d := funext fun a => Fin.ext (by
    match a with
    | ⟨0, _⟩ => exact lhs_0 _ _
    | ⟨1, _⟩ => exact (lhs_1 _ _).trans hk)
  have er : dot_S128x512_S512x512_S128x512_1_0_0_1_n_n.rhsIdx (ix2 r k) ((contrEquiv1 dot_S128x512_S512x512_S128x512_1_0_0_1_n_n 512 rfl rfl).symm d) = ix2 d k := funext fun a => Fin.ext (by
    match a with
    | ⟨0, _⟩ => exact (rhs_0 _ _).trans hk
    | ⟨1, _⟩ => exact rhs_1 _ _)
  rw [el, er]

/-! ## The contribution -/

/-- The point's contribution to the pair `(n, m)`, from its six blocks. -/
theorem contribution_apply (x y : FVec Ideal S1x128x512 .f32) (wx wy : FVec Ideal S512x512 .f32) (b w : FVec Ideal S1x512 .f32)
    (n m : Fin 128) :
    k0_pay4 (F := Ideal) x y wx wy b w (ix2 n m)
      = ∑ k : Fin 512, max (((∑ d : Fin 512, x (ix3 (0 : Fin 1) n d) * wx (ix2 d k))
            + ∑ d : Fin 512, y (ix3 (0 : Fin 1) m d) * wy (ix2 d k)) + b (ix2 (0 : Fin 1) k)) 0 * w (ix2 (0 : Fin 1) k) := by
  unfold k0_pay4
  dsimp only
  refine (TileOps.multiReduction_add_last _ _ reduces_S128x128x512_S128x128 (.inl rfl) rfl n m).trans ?_
  refine Finset.sum_congr rfl fun k _ => ?_
  rw [mulf_apply, maximumf_apply, addf_apply, addf_apply, broadcast_apply,
    TileOps.broadcastTo_a1c_abc_apply, TileOps.broadcastTo_1bc_abc_apply, TileOps.broadcastTo_11c_abc_apply,
    TileOps.broadcastTo_11c_abc_apply, RowOps.shapeCast_ab_a1b_apply, shapeCast_ab_1ab_apply, shapeCast_ab_1ab_apply,
    shapeCast_ab_1ab_apply, shapeCast_self, product_apply, product_apply]
  simp only [truncf_apply, shapeCast_1ab_ab_apply, shapeCast_self, Ideal.ofBits_def, Ideal.ofBits_zero_f32]

/-- The same with the six blocks known entry by entry: if the rows of the two row blocks are rows `(bb, ·)` of `X` and
    `Y`, the two weight blocks are the transposed left and right halves of the rows of `W1` for tile `s`, and the two
    row vectors are tile `s` of `b1` and of `W2`, the contribution is that tile's part of the score. -/
theorem contribution_of_reads (x y : FVec Ideal S1x128x512 .f32) (wx wy : FVec Ideal S512x512 .f32) (b w : FVec Ideal S1x512 .f32)
    (X Y : S8x128x512.Idx → EReal) (W1 : S1024x1024.Idx → EReal) (B1 : S1024.Idx → EReal) (W2 : S1x1024.Idx → EReal)
    (bb : Fin 8) (s : Fin 2)
    (hx : ∀ (r : Fin 128) (d : Fin 512), x (ix3 (0 : Fin 1) r d) = X (ix3 bb r d))
    (hy : ∀ (r : Fin 128) (d : Fin 512), y (ix3 (0 : Fin 1) r d) = Y (ix3 bb r d))
    (hwx : ∀ (d k : Fin 512), wx (ix2 d k) = W1 (ix2 (PairAffinity.col s k) (PairAffinity.lo d)))
    (hwy : ∀ (d k : Fin 512), wy (ix2 d k) = W1 (ix2 (PairAffinity.col s k) (PairAffinity.hi d)))
    (hb : ∀ k : Fin 512, b (ix2 (0 : Fin 1) k) = B1 (ix1 (PairAffinity.col s k)))
    (hw : ∀ k : Fin 512, w (ix2 (0 : Fin 1) k) = W2 (ix2 (0 : Fin 1) (PairAffinity.col s k)))
    (n m : Fin 128) :
    k0_pay4 (F := Ideal) x y wx wy b w (ix2 n m) = PairAffinity.tile X Y W1 B1 W2 bb n m s := by
  rw [contribution_apply]
  unfold PairAffinity.tile PairAffinity.unit
  simp only [hx, hy, hwx, hwy, hb, hw]

/-! ## The running sum and the output block -/

/-- The stored zero block. -/
theorem zero_apply (i : S128x128.Idx) : k0_pay3 (F := Ideal) i = 0 := by
  unfold k0_pay3
  rw [shapeCast_self, broadcast_apply]
  simp only [Ideal.ofBits_def, Ideal.ofBits_zero_f32]

/-- The update of the running sum: what was there plus the contribution. -/
theorem update_apply (contrib held : FVec Ideal S128x128 .f32) (i : S128x128.Idx) :
    k0_pay1 (F := Ideal) contrib held i = held i + contrib i := by
  unfold k0_pay1
  rw [shapeCast_self]
  rfl

/-- The output block is the running sum viewed as [1, 128, 128]. -/
theorem block_apply (v : FVec Ideal S128x128 .f32) (n m : Fin 128) :
    k0_pay2 (F := Ideal) v (ix3 (0 : Fin 1) n m) = v (ix2 n m) := by
  unfold k0_pay2
  exact shapeCast_ab_1ab_apply v shapeCasts_S128x128_S1x128x128 (0 : Fin 1) n m

end Cert.KernelIdeal.Tile

end
-- ==== Proof.Blocks.lean ====
/-
  What each input window holds at a grid point, entry by entry.

  The grid is 8 batches by 2 tiles of hidden units, and point `t` of the 16 is batch `t / 2`, tile `t % 2`. At that
  point the window of `X` (and of `Y`) is the batch's [1, 128, 512] block, so its entry (0, r, d) is `X[t / 2, r, d]`.
  The two weight windows read the arrays the program forms before the region: the left (right) half of `W1`, columns
  0 … 511 (512 … 1023), transposed to [512, 1024]. The window is the [512, 512] block of columns of tile `t % 2`, so its
  entry (d, k) is `W1[(t % 2) · 512 + k, d]` (respectively `W1[(t % 2) · 512 + k, 512 + d]`). The window of `b1` reads
  `b1` reshaped to [1, 1024] and the window of `W2` reads `W2` itself: entry (0, k) is entry `(t % 2) · 512 + k`.
-/
import proofs.«176836_j51118700757140_1_alg».proof.Proof.Gen.KernelIdeal.Frame
import proofs.«176836_j51118700757140_1_alg».proof.Proof.Spec
import Idealize.ShloMosaic.Lib.ValueLayout
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx PairAffinity

variable {F : FTy → Type} [FloatOps F]
variable (m : (ℓ : Loc nD τ sig) → Buf (Elt F) ℓ)

theorem lt16 (t : Fin cfg0.N) : t.val < 16 := lt_of_lt_of_eq t.isLt (show cfg0.N = 16 from N_0)

/-- The batch of point `t`. -/
def batch (t : Fin cfg0.N) : Fin 8 := ⟨t.val / 2, by have := lt16 t; omega⟩
/-- The tile of hidden units of point `t`. -/
def tileOf (t : Fin cfg0.N) : Fin 2 := ⟨t.val % 2, Nat.mod_lt _ (by decide)⟩

/-- The printed index maps, decided once over the grid. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 2) = 0 ∧ win0_2.index t (1 : Fin 2) = t.val % 2)
    ∧ (win0_3.index t (0 : Fin 2) = 0 ∧ win0_3.index t (1 : Fin 2) = t.val % 2)
    ∧ (win0_4.index t (0 : Fin 2) = 0 ∧ win0_4.index t (1 : Fin 2) = t.val % 2)
    ∧ (win0_5.index t (0 : Fin 2) = 0 ∧ win0_5.index t (1 : Fin 2) = t.val % 2)
    ∧ (win0_6.index t (0 : Fin 3) = t.val / 2 ∧ win0_6.index t (1 : Fin 3) = 0 ∧ win0_6.index t (2 : Fin 3) = 0) :=
  (by decide +kernel : ∀ t : Fin grid0.N, _)

/-! ## The arrays the program forms before the region -/

/-- The left half of `W1`, transposed. -/
theorem left_eq (c : Dev nD) : (V m c main_v2 : S512x1024.Idx → Elt F .f32)
    = transpose S512x1024 [1, 0] (extractStridedSlice S1024x512 ![0, 0] (m ((c : Thread nD τ).loc main_arg2)) slices_S1024x1024_S1024x512_0_0) transposes_S1024x512_S512x1024_1_0 := by
  show StableHlo.after hostOps0 (fun b => m (c, b)) (Proc.devRef .tc main_v2) = _
  after_results <;> rfl

/-- The right half of `W1`, transposed. -/
theorem right_eq (c : Dev nD) : (V m c main_v3 : S512x1024.Idx → Elt F .f32)
    = transpose S512x1024 [1, 0] (extractStridedSlice S1024x512 ![0, 512] (m ((c : Thread nD τ).loc main_arg2)) slices_S1024x1024_S1024x512_0_512) transposes_S1024x512_S512x1024_1_0 := by
  show StableHlo.after hostOps0 (fun b => m (c, b)) (Proc.devRef .tc main_v3) = _
  after_results <;> rfl

/-- `b1` as one row. -/
theorem bias_eq (c : Dev nD) : (V m c main_v4 : S1x1024.Idx → Elt F .f32)
    = shapeCast S1x1024 (m ((c : Thread nD τ).loc main_arg3)) shapeCasts_S1024_S1x1024 := by
  show StableHlo.after hostOps0 (fun b => m (c, b)) (Proc.devRef .tc main_v4) = _
  after_results <;> rfl

/-- Entry `(d, h)` of the transposed left half is `W1[h, d]`. -/
theorem left_apply (c : Dev nD) (d : Fin 512) (h : Fin 1024) :
    (V m c main_v2 : S512x1024.Idx → Elt F .f32) (ix2 d h) = m ((c : Thread nD τ).loc main_arg2) (ix2 h (lo d)) := by
  rw [left_eq, transpose_ix2_apply]
  exact slice2_axis1_apply 0 _ _ h d (lo d) (by show d.val = 0 + d.val; omega)

/-- Entry `(d, h)` of the transposed right half is `W1[h, 512 + d]`. -/
theorem right_apply (c : Dev nD) (d : Fin 512) (h : Fin 1024) :
    (V m c main_v3 : S512x1024.Idx → Elt F .f32) (ix2 d h) = m ((c : Thread nD τ).loc main_arg2) (ix2 h (hi d)) := by
  rw [right_eq, transpose_ix2_apply]
  exact slice2_axis1_apply 512 _ _ h d (hi d) rfl

/-- Entry `(0, h)` of the row is `b1[h]`. -/
theorem bias_apply (c : Dev nD) (h : Fin 1024) :
    (V m c main_v4 : S1x1024.Idx → Elt F .f32) (ix2 (0 : Fin 1) h) = m ((c : Thread nD τ).loc main_arg3) (ix1 h) := by
  rw [bias_eq]
  exact shapeCast_a_1a_apply _ _ (0 : Fin 1) h

/-! ## The blocks -/

/-- The block of `X` at point `t`: rows of batch `t / 2`. -/
theorem x_read (c : Dev nD) (t : Fin cfg0.N) (r : Fin 128) (d : Fin 512) :
    (iblk m c 0 t : Vec F S1x128x512 .f32) (ix3 (0 : Fin 1) r d) = m ((c : Thread nD τ).loc main_arg0) (ix3 (batch t) r d) := by
  obtain ⟨⟨e0, e1, e2⟩, -⟩ := idx_facts t
  show V m c main_arg0 (((cfg0.win 0).blk t).view.emb (ix3 (0 : Fin 1) r d)) = _
  rw [V_main_arg0]
  refine congrArg (m ((c : Thread nD τ).loc main_arg0)) (funext fun a => Fin.ext ?_)
  match a with
  | ⟨0, _⟩ => show win0_0.index t (0 : Fin 3) * 1 + 1 * 0 = t.val / 2; omega
  | ⟨1, _⟩ => show win0_0.index t (1 : Fin 3) * 128 + 1 * r.val = r.val; omega
  | ⟨2, _⟩ => show win0_0.index t (2 : Fin 3) * 512 + 1 * d.val = d.val; omega

/-- The block of `Y` at point `t`: rows of batch `t / 2`. -/
theorem y_read (c : Dev nD) (t : Fin cfg0.N) (r : Fin 128) (d : Fin 512) :
    (iblk m c 1 t : Vec F S1x128x512 .f32) (ix3 (0 : Fin 1) r d) = m ((c : Thread nD τ).loc main_arg1) (ix3 (batch t) r d) := by
  obtain ⟨-, ⟨e0, e1, e2⟩, -⟩ := idx_facts t
  show V m c main_arg1 (((cfg0.win 1).blk t).view.emb (ix3 (0 : Fin 1) r d)) = _
  rw [V_main_arg1]
  refine congrArg (m ((c : Thread nD τ).loc main_arg1)) (funext fun a => Fin.ext ?_)
  match a with
  | ⟨0, _⟩ => show win0_1.index t (0 : Fin 3) * 1 + 1 * 0 = t.val / 2; omega
  | ⟨1, _⟩ => show win0_1.index t (1 : Fin 3) * 128 + 1 * r.val = r.val; omega
  | ⟨2, _⟩ => show win0_1.index t (2 : Fin 3) * 512 + 1 * d.val = d.val; omega

/-- Where the blocks of the [·, 1024] arrays sit: column `k` of the block of point `t` is column `(t % 2) · 512 + k`. -/
theorem emb2 (t : Fin cfg0.N) (d k : Fin 512) : ((cfg0.win 2).blk t).view.emb (ix2 d k) = ix2 d (col (tileOf t) k) := by
  obtain ⟨-, -, ⟨e0, e1⟩, -⟩ := idx_facts t
  refine funext fun a => Fin.ext ?_
  match a with
  | ⟨0, _⟩ => show win0_2.index t (0 : Fin 2) * 512 + 1 * d.val = d.val; omega
  | ⟨1, _⟩ => show win0_2.index t (1 : Fin 2) * 512 + 1 * k.val = t.val % 2 * 512 + k.val; omega

theorem emb3 (t : Fin cfg0.N) (d k : Fin 512) : ((cfg0.win 3).blk t).view.emb (ix2 d k) = ix2 d (col (tileOf t) k) := by
  obtain ⟨-, -, -, ⟨e0, e1⟩, -⟩ := idx_facts t
  refine funext fun a => Fin.ext ?_
  match a with
  | ⟨0, _⟩ => show win0_3.index t (0 : Fin 2) * 512 + 1 * d.val = d.val; omega
  | ⟨1, _⟩ => show win0_3.index t (1 : Fin 2) * 512 + 1 * k.val = t.val % 2 * 512 + k.val; omega

theorem emb4 (t : Fin cfg0.N) (k : Fin 512) : ((cfg0.win 4).blk t).view.emb (ix2 (0 : Fin 1) k) = ix2 (0 : Fin 1) (col (tileOf t) k) := by
  obtain ⟨-, -, -, -, ⟨e0, e1⟩, -⟩ := idx_facts t
  refine funext fun a => Fin.ext ?_
  match a with
  | ⟨0, _⟩ => show win0_4.index t (0 : Fin 2) * 1 + 1 * 0 = 0; omega
  | ⟨1, _⟩ => show win0_4.index t (1 : Fin 2) * 512 + 1 * k.val = t.val % 2 * 512 + k.val; omega

theorem emb5 (t : Fin cfg0.N) (k : Fin 512) : ((cfg0.win 5).blk t).view.emb (ix2 (0 : Fin 1) k) = ix2 (0 : Fin 1) (col (tileOf t) k) := by
  obtain ⟨-, -, -, -, -, ⟨e0, e1⟩, -⟩ := idx_facts t
  refine funext fun a => Fin.ext ?_
  match a with
  | ⟨0, _⟩ => show win0_5.index t (0 : Fin 2) * 1 + 1 * 0 = 0; omega
  | ⟨1, _⟩ => show win0_5.index t (1 : Fin 2) * 512 + 1 * k.val = t.val % 2 * 512 + k.val; omega

/-- The block of the transposed left half at point `t`. -/
theorem wx_read (c : Dev nD) (t : Fin cfg0.N) (d k : Fin 512) :
    (iblk m c 2 t : Vec F S512x512 .f32) (ix2 d k) = m ((c : Thread nD τ).loc main_arg2) (ix2 (col (tileOf t) k) (lo d)) := by
  show (V m c main_v2 : S512x1024.Idx → Elt F .f32) (((cfg0.win 2).blk t).view.emb (ix2 d k)) = _
  rw [emb2]
  exact left_apply m c d _

/-- The block of the transposed right half at point `t`. -/
theorem wy_read (c : Dev nD) (t : Fin cfg0.N) (d k : Fin 512) :
    (iblk m c 3 t : Vec F S512x512 .f32) (ix2 d k) = m ((c : Thread nD τ).loc main_arg2) (ix2 (col (tileOf t) k) (hi d)) := by
  show (V m c main_v3 : S512x1024.Idx → Elt F .f32) (((cfg0.win 3).blk t).view.emb (ix2 d k)) = _
  rw [emb3]
  exact right_apply m c d _

/-- The block of `b1` at point `t`. -/
theorem b_read (c : Dev nD) (t : Fin cfg0.N) (k : Fin 512) :
    (iblk m c 4 t : Vec F S1x512 .f32) (ix2 (0 : Fin 1) k) = m ((c : Thread nD τ).loc main_arg3) (ix1 (col (tileOf t) k)) := by
  show (V m c main_v4 : S1x1024.Idx → Elt F .f32) (((cfg0.win 4).blk t).view.emb (ix2 (0 : Fin 1) k)) = _
  rw [emb4]
  exact bias_apply m c _

/-- The block of `W2` at point `t`. -/
theorem w_read (c : Dev nD) (t : Fin cfg0.N) (k : Fin 512) :
    (iblk m c 5 t : Vec F S1x512 .f32) (ix2 (0 : Fin 1) k) = m ((c : Thread nD τ).loc main_arg4) (ix2 (0 : Fin 1) (col (tileOf t) k)) := by
  show V m c main_arg4 (((cfg0.win 5).blk t).view.emb (ix2 (0 : Fin 1) k)) = _
  rw [emb5, V_main_arg4]

end Cert.KernelIdeal.Blocks

end
-- ==== Proof.Accum.lean ====
/-
  The running sum over a batch's two points, and the array the region leaves.

  Point `t` contributes, to the pair (n, m) of its batch, the part of the score that comes from its tile of hidden
  units. At an even point (tile 0) the scratch is reset and ends at `0 + tile₀`. The odd point after it (tile 1, same
  batch) adds its own contribution and writes the sum to the batch's block of the output, so the block holds
  `(0 + tile₀) + tile₁`, which is the sum over all 1024 hidden units. Only odd points write back, point `2b + 1` writes
  the block of batch `b`, and the eight blocks tile the [8, 128, 128] array.
-/
import proofs.«176836_j51118700757140_1_alg».proof.Proof.Pieces
import proofs.«176836_j51118700757140_1_alg».proof.Proof.Tile
import proofs.«176836_j51118700757140_1_alg».proof.Proof.Blocks

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Blocks Idealize.ShloMosaic.ValueIdx PairAffinity

variable (m : (ℓ : Loc nD τ sig) → Buf (Elt Ideal) ℓ)

/-- The six argument arrays as launched. -/
abbrev argX (c : Dev nD) : S8x128x512.Idx → EReal := m ((c : Thread nD τ).loc main_arg0)
abbrev argY (c : Dev nD) : S8x128x512.Idx → EReal := m ((c : Thread nD τ).loc main_arg1)
abbrev argW1 (c : Dev nD) : S1024x1024.Idx → EReal := m ((c : Thread nD τ).loc main_arg2)
abbrev argB1 (c : Dev nD) : S1024.Idx → EReal := m ((c : Thread nD τ).loc main_arg3)
abbrev argW2 (c : Dev nD) : S1x1024.Idx → EReal := m ((c : Thread nD τ).loc main_arg4)
abbrev argB2 (c : Dev nD) : S1.Idx → EReal := m ((c : Thread nD τ).loc main_arg5)

/-- Point `t`'s contribution to the pair `(n, p)` is its tile's part of the score of its batch. -/
theorem contribution_point (c : Dev nD) (t : Fin cfg0.N) (n p : Fin 128) :
    k0_pay4 (F := Ideal) (iblk m c 0 t) (iblk m c 1 t) (iblk m c 2 t) (iblk m c 3 t) (iblk m c 4 t) (iblk m c 5 t) (ix2 n p)
      = tile (argX m c) (argY m c) (argW1 m c) (argB1 m c) (argW2 m c) (batch t) n p (tileOf t) :=
  Tile.contribution_of_reads (iblk m c 0 t) (iblk m c 1 t) (iblk m c 2 t) (iblk m c 3 t) (iblk m c 4 t) (iblk m c 5 t)
    (argX m c) (argY m c) (argW1 m c) (argB1 m c) (argW2 m c) (batch t) (tileOf t)
    (x_read m c t) (y_read m c t) (wx_read m c t) (wy_read m c t) (b_read m c t) (w_read m c t) n p

/-- After an even point the scratch holds zero plus that point's contribution. -/
theorem scratch_even (c : Dev nD) (t : Fin cfg0.N) (h0 : t.val % 2 = 0) (n p : Fin 128) :
    (outsAt0 m c t.val t.isLt).2 (ix2 n p) = 0 + tile (argX m c) (argY m c) (argW1 m c) (argB1 m c) (argW2 m c) (batch t) n p (tileOf t) := by
  have h1 : ¬t.val % 2 = 1 := by omega
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    ((hcond0_0 t).mpr h0) (fun h => h1 ((hcond0_1 t).mp h)) (iblk m c 0 t) (iblk m c 1 t) (iblk m c 2 t) (iblk m c 3 t) (iblk m c 4 t) (iblk m c 5 t)) (ix2 n p)).trans ?_
  refine (Tile.update_apply _ _ _).trans ?_
  exact congrArg₂ (· + ·) (Tile.zero_apply _) (contribution_point m c t n p)

/-- After an odd point the output block holds both tiles of its batch, added in order from zero. -/
theorem out_odd (c : Dev nD) (t : Fin cfg0.N) (h1 : t.val % 2 = 1) (n p : Fin 128) :
    (outsAt0 m c t.val t.isLt).1 (ix3 (0 : Fin 1) n p)
      = (0 + tile (argX m c) (argY m c) (argW1 m c) (argB1 m c) (argW2 m c) (batch t) n p 0) + tile (argX m c) (argY m c) (argW1 m c) (argB1 m c) (argW2 m c) (batch t) n p 1 := by
  have h0 : ¬t.val % 2 = 0 := by omega
  have hlt : t.val - 1 < cfg0.N := Nat.lt_of_le_of_lt (Nat.sub_le _ _) t.isLt
  rw [outsAt0_B m c t h0 h1]
  dsimp only
  refine (congrFun (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (fun h => h0 ((hcond0_0 t).mp h)) ((hcond0_1 t).mpr h1) (iblk m c 0 t) (iblk m c 1 t) (iblk m c 2 t) (iblk m c 3 t) (iblk m c 4 t) (iblk m c 5 t)
    (outsAt0 m c (t.val - 1) hlt).2) (ix3 (0 : Fin 1) n p)).trans ?_
  refine (Tile.block_apply _ n p).trans ((Tile.update_apply _ _ _).trans ?_)
  have hp := scratch_even m c ⟨t.val - 1, hlt⟩ (by show (t.val - 1) % 2 = 0; omega) n p
  have hb : batch ⟨t.val - 1, hlt⟩ = batch t := Fin.ext (by show (t.val - 1) / 2 = t.val / 2; omega)
  have hs0 : tileOf ⟨t.val - 1, hlt⟩ = 0 := Fin.ext (by show (t.val - 1) % 2 = 0; omega)
  have hs1 : tileOf t = 1 := Fin.ext (by show t.val % 2 = 1; exact h1)
  rw [hb, hs0] at hp
  have hq := contribution_point m c t n p
  rw [hs1] at hq
  exact congrArg₂ (· + ·) hp hq

/-! ## The array after the region -/

/-- The scores before the last bias is added: all hidden units' contributions. -/
def summed (c : Dev nD) : S8x128x128.Idx → EReal := fun i => hidden (argX m c) (argY m c) (argW1 m c) (argB1 m c) (argW2 m c) (i 0) (i 1) (i 2)

/-- Where the output's block of point `t` sits: it is the block of batch `t / 2`. -/
theorem emb6 (t : Fin cfg0.N) (n p : Fin 128) :
    ((cfg0.win 6).blk t).view.emb (ix3 (0 : Fin 1) n p) = ix3 (batch t) n p := by
  obtain ⟨-, -, -, -, -, -, ⟨e0, e1, e2⟩⟩ := idx_facts t
  refine funext fun a => Fin.ext ?_
  match a with
  | ⟨0, _⟩ => show win0_6.index t (0 : Fin 3) * 1 + 1 * 0 = t.val / 2; omega
  | ⟨1, _⟩ => show win0_6.index t (1 : Fin 3) * 128 + 1 * n.val = n.val; omega
  | ⟨2, _⟩ => show win0_6.index t (2 : Fin 3) * 128 + 1 * p.val = p.val; omega

/-- What a writing point writes back is its block of `summed`. -/
theorem flushed_eq (c : Dev nD) (t : Fin cfg0.N) (hf : (cfg0.win 6).flush t = true) :
    (dats m 0 c).flushed 6 t = ((cfg0.win 6).blk t).view.read (Elt Ideal) (summed m c) := by
  have h1 : t.val % 2 = 1 := (flush0_6 t).mp hf
  show (cfg0.win 6).cut (grid0.coords t) ((dats m 0 c).after 6 t) = _
  rw [after0_6]
  funext (j : S1x128x128.Idx)
  obtain ⟨u, n, p, rfl⟩ : ∃ (u : Fin 1) (n p : Fin 128), j = ix3 u n p := ⟨j 0, j 1, j 2, eq_ix3 j⟩
  obtain rfl : u = 0 := Subsingleton.elim _ _
  show (outsAt0 m c t.val t.isLt).1 (ix3 (0 : Fin 1) n p) = summed m c (((cfg0.win 6).blk t).view.emb (ix3 (0 : Fin 1) n p))
  rw [emb6, out_odd m c t h1 n p]
  exact tiles_eq_hidden (argX m c) (argY m c) (argW1 m c) (argB1 m c) (argW2 m c) (batch t) n p

/-- Every entry of the array is in the block of the odd point of its batch. -/
theorem cover (i : S8x128x128.Idx) :
    ∃ t : Fin cfg0.N, (cfg0.win 6).flush t = true ∧ i ∈ ((cfg0.win 6).blk t).view.set := by
  have hi0 : (i 0).val < 8 := (i 0).isLt
  have hi1 : (i 1).val < 128 := (i 1).isLt
  have hi2 : (i 2).val < 128 := (i 2).isLt
  let t : Fin cfg0.N := ⟨2 * (i 0).val + 1, by rw [show cfg0.N = 16 from N_0]; omega⟩
  have ht : t.val = 2 * (i 0).val + 1 := rfl
  obtain ⟨-, -, -, -, -, -, ⟨e0, e1, e2⟩⟩ := idx_facts t
  refine ⟨t, (flush0_6 t).mpr (by omega), ?_⟩
  show i ∈ ((View.whole main_v5).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 128 ≤ (i 2).val ∧ (i 2).val < win0_6.index t (2 : Fin 3) * 128 + 128; omega

/-- The region leaves the output array at `summed`. -/
theorem final (c : Dev nD) : (dats m 0 c).arrAt 6 cfg0.N = summed m c :=
  (dats m 0 c).arrAt_eq_of_cover 6 (summed m c) (flushed_eq m c) cover

end Cert.KernelIdeal.Accum

end
-- ==== Proof.Result.lean ====
/-
  What the idealized program returns.

  After the region the program views `b2` (one entry) as a scalar, repeats it over [8, 128, 128], and adds it to the
  region's output. The region left, at (b, n, p), the contributions of all 1024 hidden units to the pair (n, p) of
  batch b; with `b2[0]` added this is the score of the pair. Nothing writes an argument array.
-/
import proofs.«176836_j51118700757140_1_alg».proof.Proof.Accum

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Blocks Cert.KernelIdeal.Accum Idealize.ShloMosaic.ValueIdx PairAffinity

variable (m : (ℓ : Loc nD τ sig) → Buf (Elt Ideal) ℓ) (ρ : Dev nD → PrngReg)

/-- A one-entry array viewed as a scalar is its entry. -/
theorem scalar_of_one (x : S1.Idx → EReal) : shapeCast S_ x shapeCasts_S1_S_ ix0 = x (ix1 (0 : Fin 1)) :=
  shapeCast_apply x shapeCasts_S1_S_ ix0 (ix1 (0 : Fin 1)) (by
    rw [Shape.rowMajor_val_one]
    exact (Shape.rowMajorPi_zero _ _).symm)

/-- The result buffer after the program's last lines: the scores. -/
theorem tail_eq (c : Dev nD) :
    Pipeline.afterTail₀ cfgs (dats m) 0 (V0 m) [hostOps1] c main_v8
      = G (argX m c) (argY m c) (argW1 m c) (argB1 m c) (argW2 m c) (argB2 m c) := by
  unfold Pipeline.afterTail₀
  show StableHlo.after hostOps1 _ (Proc.devRef .tc main_v8) = _
  after_results
  have hout : Pipeline.withArrays (cfgs 0).spec c (V0 m c) (fun w => (dats m 0 c).arrAt w (cfgs 0).N) (Proc.devRef .tc main_v5)
      = summed m c := (Pipeline.withArrays_arr spec0 launch0.win.arr_inj c _ _ 6).trans (final m c)
  have hb2 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [hout, hb2]
  funext i
  obtain ⟨b, n, p, rfl⟩ : ∃ (b : Fin 8) (n p : Fin 128), i = ix3 b n p := ⟨i 0, i 1, i 2, eq_ix3 i⟩
  rw [G_ix3]
  refine congrArg₂ (· + ·) rfl ?_
  refine (broadcastInDim_apply _ bcast_S_S8x128x128 _ (ix3 b n p) ix0 (fun a => a.elim0)).trans ?_
  exact scalar_of_one (m ((c : Thread nD τ).loc main_arg5))

/-- Every weakly fair execution of the idealized program ends with the scores in its result and its arguments as
    launched. -/
theorem run : θ_run defs (onTc (τ := τ) (main (F := Ideal))) ⟨m, fun _ => 0, ρ⟩ fun r => ∀ c : Dev nD,
      r.2.mem ((c.tc : Thread nD τ).loc main_v8) = G (argX m c) (argY m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

end Cert.KernelIdeal.Result

end
-- ==== Proof.RefScore.lean ====
/-
  The reference computes the score.

  Read one operation at a time, the reference's result at (b, n, p) is: the contraction over the 1024 hidden units h of
  max((px[b,n,h] + py[b,p,h]) + b1[h], 0) against W2[0,h], plus b2[0], where px[b,n,h] = ∑_d X[b,n,d] · W1[h,d] is the
  product of X with the left half of W1 and py[b,p,h] = ∑_d Y[b,p,d] · W1[h,512+d] the product of Y with the right half.
  The broadcasts that line px up along the pair's second row, py along its first, and b1 along all three only repeat
  entries, and the closing reshape from [8, 128, 128, 1] moves none. That is the score of the pair, term by term.
-/
import proofs.«176836_j51118700757140_1_alg».proof.Proof.Gen.ReferenceIdeal.Read
import proofs.«176836_j51118700757140_1_alg».proof.Proof.Spec

noncomputable section

open Idealize.ShloMosaic Idealize.ShloMosaic.TcCoe Idealize.SL.Sem

namespace Cert.ReferenceIdeal.RefScore

open Cert.ReferenceIdeal Cert.ReferenceIdeal.Gen Cert.ReferenceIdeal.Read Idealize.ShloMosaic.ValueIdx PairAffinity

/-! ## Where each operation looks, by coordinates -/

theorem e17 (b : Fin 8) (n p : Fin 128) : idx_main_v17 (ix3 b n p) = ix4 b n p (0 : Fin 1) :=
  funext fun a => Fin.ext (by
    have := b.isLt; have := n.isLt; have := p.isLt
    match a with
    | ⟨0, _⟩ => show ((b.val * 128 + n.val) * 128 + p.val) / 16384 = b.val; omega
    | ⟨1, _⟩ => show ((b.val * 128 + n.val) * 128 + p.val) / 128 % 128 = n.val; omega
    | ⟨2, _⟩ => show ((b.val * 128 + n.val) * 128 + p.val) / 1 % 128 = p.val; omega
    | ⟨3, _⟩ => rfl)

theorem l13 (b : Fin 8) (n p : Fin 128) (u : Fin 1) (h : Fin 1024) : lidx_main_v13 (ix4 b n p u) h = ix4 b n p h :=
  funext fun a => Fin.ext (by match a with | ⟨0, _⟩ => rfl | ⟨1, _⟩ => rfl | ⟨2, _⟩ => rfl | ⟨3, _⟩ => rfl)
theorem r13 (b : Fin 8) (n p : Fin 128) (u : Fin 1) (h : Fin 1024) : ridx_main_v13 (ix4 b n p u) h = ix2 u h :=
  funext fun a => Fin.ext (by match a with | ⟨0, _⟩ => rfl | ⟨1, _⟩ => rfl)
theorem e6 (b : Fin 8) (n p : Fin 128) (h : Fin 1024) : idx_main_v6 (ix4 b n p h) = ix4 b n (0 : Fin 1) h :=
  funext fun a => Fin.ext (by match a with | ⟨0, _⟩ => rfl | ⟨1, _⟩ => rfl | ⟨2, _⟩ => rfl | ⟨3, _⟩ => rfl)
theorem e4 (b : Fin 8) (n : Fin 128) (u : Fin 1) (h : Fin 1024) : idx_main_v4 (ix4 b n u h) = ix3 b n h :=
  funext fun a => Fin.ext (by match a with | ⟨0, _⟩ => rfl | ⟨1, _⟩ => rfl | ⟨2, _⟩ => rfl)
theorem l2 (b : Fin 8) (n : Fin 128) (h : Fin 1024) (d : Fin 512) : lidx_main_v2 (ix3 b n h) d = ix3 b n d :=
  funext fun a => Fin.ext (by match a with | ⟨0, _⟩ => rfl | ⟨1, _⟩ => rfl | ⟨2, _⟩ => rfl)
theorem r2 (b : Fin 8) (n : Fin 128) (h : Fin 1024) (d : Fin 512) : ridx_main_v2 (ix3 b n h) d = ix2 h d :=
  funext fun a => Fin.ext (by match a with | ⟨0, _⟩ => rfl | ⟨1, _⟩ => rfl)
theorem e0 (h : Fin 1024) (d : Fin 512) : idx_main_v0 (ix2 h d) = ix2 h (lo d) :=
  funext fun a => Fin.ext (by match a with | ⟨0, _⟩ => rfl | ⟨1, _⟩ => rfl)
theorem e7 (b : Fin 8) (n p : Fin 128) (h : Fin 1024) : idx_main_v7 (ix4 b n p h) = ix4 b (0 : Fin 1) p h :=
  funext fun a => Fin.ext (by match a with | ⟨0, _⟩ => rfl | ⟨1, _⟩ => rfl | ⟨2, _⟩ => rfl | ⟨3, _⟩ => rfl)
theorem e5 (b : Fin 8) (u : Fin 1) (p : Fin 128) (h : Fin 1024) : idx_main_v5 (ix4 b u p h) = ix3 b p h :=
  funext fun a => Fin.ext (by match a with | ⟨0, _⟩ => rfl | ⟨1, _⟩ => rfl | ⟨2, _⟩ => rfl)
theorem l3 (b : Fin 8) (p : Fin 128) (h : Fin 1024) (d : Fin 512) : lidx_main_v3 (ix3 b p h) d = ix3 b p d :=
  funext fun a => Fin.ext (by match a with | ⟨0, _⟩ => rfl | ⟨1, _⟩ => rfl | ⟨2, _⟩ => rfl)
theorem r3 (b : Fin 8) (p : Fin 128) (h : Fin 1024) (d : Fin 512) : ridx_main_v3 (ix3 b p h) d = ix2 h d :=
  funext fun a => Fin.ext (by match a with | ⟨0, _⟩ => rfl | ⟨1, _⟩ => rfl)
theorem e1 (h : Fin 1024) (d : Fin 512) : idx_main_v1 (ix2 h d) = ix2 h (hi d) :=
  funext fun a => Fin.ext (by match a with | ⟨0, _⟩ => rfl | ⟨1, _⟩ => rfl)
theorem e10 (b : Fin 8) (n p : Fin 128) (h : Fin 1024) :
    idx_main_v10 (ix4 b n p h) = ix4 (0 : Fin 1) (0 : Fin 1) (0 : Fin 1) h :=
  funext fun a => Fin.ext (by match a with | ⟨0, _⟩ => rfl | ⟨1, _⟩ => rfl | ⟨2, _⟩ => rfl | ⟨3, _⟩ => rfl)
theorem e9 (u v w : Fin 1) (h : Fin 1024) : idx_main_v9 (ix4 u v w h) = ix1 h :=
  funext fun a => Fin.ext (by match a with | ⟨0, _⟩ => rfl)
theorem e15 (b : Fin 8) (n p : Fin 128) (u : Fin 1) :
    idx_main_v15 (ix4 b n p u) = ix4 (0 : Fin 1) (0 : Fin 1) (0 : Fin 1) (0 : Fin 1) :=
  funext fun a => Fin.ext (by match a with | ⟨0, _⟩ => rfl | ⟨1, _⟩ => rfl | ⟨2, _⟩ => rfl | ⟨3, _⟩ => rfl)
theorem e14 (u v w z : Fin 1) : idx_main_v14 (ix4 u v w z) = ix1 z :=
  funext fun a => Fin.ext (by match a with | ⟨0, _⟩ => show 0 = z.val; omega)

/-! ## The result -/

/-- The reference's last stage is the array of scores. -/
theorem result_eq (x0 x1 : S8x128x512.Idx → EReal) (x2 : S1024x1024.Idx → EReal) (x3 : S1024.Idx → EReal)
    (x4 : S1x1024.Idx → EReal) (x5 : S1.Idx → EReal) :
    val_main_v17 (F := Ideal) x0 x1 x2 x3 x4 x5 = G x0 x1 x2 x3 x4 x5 := by
  funext i
  obtain ⟨b, n, p, rfl⟩ : ∃ (b : Fin 8) (n p : Fin 128), i = ix3 b n p := ⟨i 0, i 1, i 2, eq_ix3 i⟩
  rw [G_ix3]
  unfold PairAffinity.score PairAffinity.hidden PairAffinity.unit
  rw [val_main_v17_apply, e17, val_main_v16_apply, val_main_v13_apply, val_main_v15_apply, e15, val_main_v14_apply, e14]
  simp only [l13, r13, val_main_v12_apply, val_main_v11_apply, val_main_v8_apply, val_main_v6_apply, e6, val_main_v4_apply, e4,
    val_main_v2_apply, l2, r2, val_main_v0_apply, e0, val_main_v7_apply, e7, val_main_v5_apply, e5, val_main_v3_apply, l3, r3,
    val_main_v1_apply, e1, val_main_v10_apply, e10, val_main_v9_apply, e9, val_main_call0_v0_apply, val_main_call0_cst_apply,
    Ideal.addf_def, Ideal.maximumf_def, Ideal.ofBits_def, Ideal.ofBits_zero_f32]

end Cert.ReferenceIdeal.RefScore

end
-- ==== Proof.lean ====
/-
  Pairwise affinity scores: a two-layer perceptron applied to every pair of a row of `X[b]` and a row of `Y[b]`.

  For batch b and rows n of X[b] and p of Y[b], the score is
      ∑_{h < 1024} max((∑_d X[b,n,d] · W1[h,d] + ∑_d Y[b,p,d] · W1[h,512+d]) + b1[h], 0) · W2[0,h]  +  b2[0] .
  The reference forms the two products with the halves of W1 for all rows at once, broadcasts them against each other
  over the pairs, adds b1, clamps at zero, contracts the 1024 hidden units against W2 and adds b2.

  The kernel never forms the [8, 128, 128, 1024] array of hidden activations. Its grid is 8 batches by 2 tiles of 512
  hidden units. At a point it multiplies the batch's rows of X and of Y with the tile's columns of the transposed halves
  of W1, forms the tile's hidden activations for all 128 × 128 pairs, weights them by the tile's entries of W2 and sums
  over the tile. A scratch array carries the sum from the batch's first point (where it starts from zero) to its second,
  which writes `(0 + tile₀) + tile₁` to the batch's block of the output; b2[0] is added to the whole array afterwards.

  Over the extended reals a sum over 1024 terms is the sum over the first 512 plus the sum over the last 512, and
  zero is neutral, with no condition on the terms; the narrowing of the products' operands to bf16 is the identity
  there. So both programs return the same array, whatever the (finite or infinite) entries of the arguments.

  Modules: Spec (the score and the split of the sum), LibRowOps and LibTileOps (views, broadcasts and the lane sum read at
  coordinates), Tile (a point's contribution from its six blocks), Pieces (what a point leaves in the scratch and the
  output block), Blocks (what the six windows hold at a point), Accum (the two points of a batch, and the array the
  region leaves), Result (the program's result), RefScore (the reference's result).
-/
import proofs.«176836_j51118700757140_1_alg».proof.Defs
import proofs.«176836_j51118700757140_1_alg».proof.Proof.Gen.Kernel
import proofs.«176836_j51118700757140_1_alg».proof.Proof.Gen.Kernel.Skeleton
import proofs.«176836_j51118700757140_1_alg».proof.Proof.Gen.Kernel.Launch
import proofs.«176836_j51118700757140_1_alg».proof.Proof.Gen.Kernel.Points
import proofs.«176836_j51118700757140_1_alg».proof.Proof.Gen.Kernel.Frame
import proofs.«176836_j51118700757140_1_alg».proof.Proof.Gen.KernelIdeal
import proofs.«176836_j51118700757140_1_alg».proof.Proof.Gen.KernelIdeal.Skeleton
import proofs.«176836_j51118700757140_1_alg».proof.Proof.Gen.KernelIdeal.Launch
import proofs.«176836_j51118700757140_1_alg».proof.Proof.Gen.KernelIdeal.Points
import proofs.«176836_j51118700757140_1_alg».proof.Proof.Gen.KernelIdeal.Frame
import proofs.«176836_j51118700757140_1_alg».proof.Proof.Gen.ReferenceIdeal
import proofs.«176836_j51118700757140_1_alg».proof.Proof.Gen.Pre_finite_inputs
import proofs.«176836_j51118700757140_1_alg».proof.Proof.Gen.ReferenceIdeal.Run
import proofs.«176836_j51118700757140_1_alg».proof.Proof.Gen.ReferenceIdeal.Read
import proofs.«176836_j51118700757140_1_alg».proof.Proof.Result
import proofs.«176836_j51118700757140_1_alg».proof.Proof.RefScore
import Idealize.ShloMosaic.Adequacy
import Idealize.ShloMosaic.Init

noncomputable section

namespace Cert.Proof

open Idealize.ShloMosaic Idealize.SL.Sem

/-- The program as printed runs, and leaves its arguments as launched. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference is a straight line of array operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- The reading over the extended reals rewrote no operation. -/
theorem preserves : Cert.preserves_Kernel_KernelIdeal := trivial

/-- From arguments that agree, both programs end with the array of scores in their result. -/
theorem algebraic : Cert.algebraic_KernelIdeal_ReferenceIdeal := by
  intro m ρ m' ρ' _ hagree
  refine ⟨fun c => PairAffinity.G (Cert.KernelIdeal.Accum.argX m c) (Cert.KernelIdeal.Accum.argY m c) (Cert.KernelIdeal.Accum.argW1 m c) (Cert.KernelIdeal.Accum.argB1 m c) (Cert.KernelIdeal.Accum.argW2 m c) (Cert.KernelIdeal.Accum.argB2 m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans (Cert.ReferenceIdeal.RefScore.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
